-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128x16 : Shape := ⟨3, ![8192, 128, 16]⟩
abbrev S8192x128 : Shape := ⟨2, ![8192, 128]⟩
abbrev S8192x8 : Shape := ⟨2, ![8192, 8]⟩
abbrev S_ : Shape := ⟨0, ![]⟩

class Facts : Prop where
  bcast_S_S8192x128x16 : S_.BroadcastsInDim S8192x128x16 (![] : Fin 0 → Fin S8192x128x16.rank)
  reducesTo_S8192x128x16_S_d0_1_2 : S8192x128x16.ReducesTo [0, 1, 2] S_
  h_S_ : 0 < S_.numel
  bcast_S_S8192x8 : S_.BroadcastsInDim S8192x8 (![] : Fin 0 → Fin S8192x8.rank)
  reducesTo_S8192x8_S_d0_1 : S8192x8.ReducesTo [0, 1] S_
  bcast_S_S8192x128 : S_.BroadcastsInDim S8192x128 (![] : Fin 0 → Fin S8192x128.rank)
  reducesTo_S8192x128_S_d0_1 : S8192x128.ReducesTo [0, 1] S_

variable [Facts]

def fn_part1 {F : FTy → Type} [FloatOps F] (main_arg2 : IVec S8192x128 32) (main_v13 : IVec S_ 1) (main_v15 : IVec S8192x128 1) (main_c_5 : IVec S_ 1) : IVec S_ 1 :=
  let main_v16 : IVec S_ 1 := (fun x v => Host.reduce IntOp.andi x v reducesTo_S8192x128_S_d0_1 h_S_) main_v15 main_c_5
  let main_v17 : IVec S_ 1 := andi main_v13 main_v16
  let main_c_6 : IVec S_ 32 := constantI S_ 32 8#32
  let main_v18 : IVec S8192x128 32 := broadcastInDim S8192x128 ![] bcast_S_S8192x128 main_c_6
  let main_v19 : IVec S8192x128 1 := cmpi .slt main_arg2 main_v18
  let main_c_7 : IVec S_ 1 := constantI S_ 1 1#1
  let main_v20 : IVec S_ 1 := (fun x v => Host.reduce IntOp.andi x v reducesTo_S8192x128_S_d0_1 h_S_) main_v19 main_c_7
  let main_v21 : IVec S_ 1 := andi main_v17 main_v20
  main_v21

def fn {F : FTy → Type} [FloatOps F] (main_arg0 : FVec F S8192x128x16 .f32) (main_arg1 : FVec F S8192x128x16 .f32) (main_arg2 : IVec S8192x128 32) (main_arg3 : FVec F S8192x8 .f32) : IVec S_ 1 :=
  let main_v0 : FVec F S8192x128x16 .f32 := Host.absf main_arg0
  let main_cst : FVec F S_ .f32 := constant S_ .f32 0x7F800000#32
  let main_v1 : FVec F S8192x128x16 .f32 := broadcastInDim S8192x128x16 ![] bcast_S_S8192x128x16 main_cst
  let main_v2 : IVec S8192x128x16 1 := cmpf .olt main_v0 main_v1
  let main_c : IVec S_ 1 := constantI S_ 1 1#1
  let main_v3 : IVec S_ 1 := (fun x v => Host.reduce IntOp.andi x v reducesTo_S8192x128x16_S_d0_1_2 h_S_) main_v2 main_c
  let main_v4 : FVec F S8192x128x16 .f32 := Host.absf main_arg1
  let main_cst_0 : FVec F S_ .f32 := constant S_ .f32 0x7F800000#32
  let main_v5 : FVec F S8192x128x16 .f32 := broadcastInDim S8192x128x16 ![] bcast_S_S8192x128x16 main_cst_0
  let main_v6 : IVec S8192x128x16 1 := cmpf .olt main_v4 main_v5
  let main_c_1 : IVec S_ 1 := constantI S_ 1 1#1
  let main_v7 : IVec S_ 1 := (fun x v => Host.reduce IntOp.andi x v reducesTo_S8192x128x16_S_d0_1_2 h_S_) main_v6 main_c_1
  let main_v8 : IVec S_ 1 := andi main_v3 main_v7
  let main_v9 : FVec F S8192x8 .f32 := Host.absf main_arg3
  let main_cst_2 : FVec F S_ .f32 := constant S_ .f32 0x7F800000#32
  let main_v10 : FVec F S8192x8 .f32 := broadcastInDim S8192x8 ![] bcast_S_S8192x8 main_cst_2
  let main_v11 : IVec S8192x8 1 := cmpf .olt main_v9 main_v10
  let main_c_3 : IVec S_ 1 := constantI S_ 1 1#1
  let main_v12 : IVec S_ 1 := (fun x v => Host.reduce IntOp.andi x v reducesTo_S8192x8_S_d0_1 h_S_) main_v11 main_c_3
  let main_v13 : IVec S_ 1 := andi main_v8 main_v12
  let main_c_4 : IVec S_ 32 := constantI S_ 32 0#32
  let main_v14 : IVec S8192x128 32 := broadcastInDim S8192x128 ![] bcast_S_S8192x128 main_c_4
  let main_v15 : IVec S8192x128 1 := cmpi .sge main_arg2 main_v14
  let main_c_5 : IVec S_ 1 := constantI S_ 1 1#1
  fn_part1 (F := F) main_arg2 main_v13 main_v15 main_c_5
-- ==== Kernel.lean ====
abbrev S8192x128x16 : Shape := ⟨3, ![8192, 128, 16]⟩
abbrev S8192x128 : Shape := ⟨2, ![8192, 128]⟩
abbrev S8192x8 : Shape := ⟨2, ![8192, 8]⟩
abbrev S64x128x16 : Shape := ⟨3, ![64, 128, 16]⟩
abbrev S64x128 : Shape := ⟨2, ![64, 128]⟩
abbrev S64x8 : Shape := ⟨2, ![64, 8]⟩
abbrev S64 : Shape := ⟨1, ![64]⟩
abbrev S64x1 : Shape := ⟨2, ![64, 1]⟩
abbrev S64x128x1 : Shape := ⟨3, ![64, 128, 1]⟩

abbrev nBuf : Space → Nat
  | .hbm => 5
  | .vmem => 10
  | .smem => 0
  | _ => 0

abbrev bufTy : (tb : Table) → Fin (tcTables nBuf tb) → BufTy
  | .hbm, ⟨0, _⟩ => ⟨S8192x128x16, .f32⟩
  | .hbm, ⟨1, _⟩ => ⟨S8192x128x16, .f32⟩
  | .hbm, ⟨2, _⟩ => ⟨S8192x128, .i32⟩
  | .hbm, ⟨3, _⟩ => ⟨S8192x8, .f32⟩
  | .hbm, ⟨4, _⟩ => ⟨S8192x128x16, .f32⟩
  | .local _ .vmem, ⟨0, _⟩ => ⟨S64x128x16, .f32⟩
  | .local _ .vmem, ⟨1, _⟩ => ⟨S64x128x16, .f32⟩
  | .local _ .vmem, ⟨2, _⟩ => ⟨S64x128x16, .f32⟩
  | .local _ .vmem, ⟨3, _⟩ => ⟨S64x128x16, .f32⟩
  | .local _ .vmem, ⟨4, _⟩ => ⟨S64x128, .i32⟩
  | .local _ .vmem, ⟨5, _⟩ => ⟨S64x128, .i32⟩
  | .local _ .vmem, ⟨6, _⟩ => ⟨S64x8, .f32⟩
  | .local _ .vmem, ⟨7, _⟩ => ⟨S64x8, .f32⟩
  | .local _ .vmem, ⟨8, _⟩ => ⟨S64x128x16, .f32⟩
  | .local _ .vmem, ⟨9, _⟩ => ⟨S64x128x16, .f32⟩
  | _, _ => ⟨S8192x128x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x128x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S64x128x16_S64x128x16_0_0_0 : ∀ a, (![0, 0, 0] : Fin 3 → Nat) a + S64x128x16.size a ≤ S64x128x16.size a
  h_S64x128x16 : 0 < S64x128x16.numel
  inb_S64x128_S64x128_0_0 : ∀ a, (![0, 0] : Fin 2 → Nat) a + S64x128.size a ≤ S64x128.size a
  h_S64x128 : 0 < S64x128.numel
  inb_S64x8_S64x8_0_0 : ∀ a, (![0, 0] : Fin 2 → Nat) a + S64x8.size a ≤ S64x8.size a
  h_S64x8 : 0 < S64x8.numel
  reduces_S64x128x16_S64x128 : S64x128x16.Reduces [2] S64x128
  reduces_S64x128_S64 : S64x128.Reduces [1] S64
  shapeCasts_S64_S64x1 : S64.ShapeCasts S64x1
  slices_S64x8_o0_0_S64x1 : S64x8.Slices ![0, 0] S64x1
  shapeCasts_S64x1_S64x1 : S64x1.ShapeCasts S64x1
  broadcasts_S64x1_S64x128 : S64x1.Broadcasts S64x128
  slices_S64x8_o0_1_S64x1 : S64x8.Slices ![0, 1] S64x1
  slices_S64x8_o0_2_S64x1 : S64x8.Slices ![0, 2] S64x1
  slices_S64x8_o0_3_S64x1 : S64x8.Slices ![0, 3] S64x1
  slices_S64x8_o0_4_S64x1 : S64x8.Slices ![0, 4] S64x1
  slices_S64x8_o0_5_S64x1 : S64x8.Slices ![0, 5] S64x1
  slices_S64x8_o0_6_S64x1 : S64x8.Slices ![0, 6] S64x1
  slices_S64x8_o0_7_S64x1 : S64x8.Slices ![0, 7] S64x1
  shapeCasts_S64x128_S64x128x1 : S64x128.ShapeCasts S64x128x1
  broadcasts_S64x128x1_S64x128x16 : S64x128x1.Broadcasts S64x128x16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x16.size a ≤ S8192x128x16.size a
  hwx0_0 : ∀ i : grid0.Coords, EltTy.bits .f32 = 32 ∨ (Rect.block (s := S8192x128x16) S64x128x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128x16.size a ≤ S8192x128x16.size a
  hwx0_1 : ∀ i : grid0.Coords, EltTy.bits .f32 = 32 ∨ (Rect.block (s := S8192x128x16) S64x128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S8192x128.size a
  hwx0_2 : ∀ i : grid0.Coords, EltTy.bits .i32 = 32 ∨ (Rect.block (s := S8192x128) S64x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x8.size a ≤ S8192x8.size a
  hwx0_3 : ∀ i : grid0.Coords, EltTy.bits .f32 = 32 ∨ (Rect.block (s := S8192x8) S64x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x128x16.size a ≤ S8192x128x16.size a
  hwx0_4 : ∀ i : grid0.Coords, EltTy.bits .f32 = 32 ∨ (Rect.block (s := S8192x128x16) S64x128x16.size (cc0_transform_4 i) (hinb0_4 i)).WholeWords (EltTy.packing .f32)

variable [Facts₀]

abbrev win0_0 : Pipeline.Window sig grid0 :=
  Pipeline.Window.ofSpec (Memref.whole main_arg0) S64x128x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S64x128x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x128x16 : Shape := ⟨3, ![8192, 128, 16]⟩
abbrev S8192x128 : Shape := ⟨2, ![8192, 128]⟩
abbrev S8192x8 : Shape := ⟨2, ![8192, 8]⟩
abbrev S8192 : Shape := ⟨1, ![8192]⟩
abbrev S8192x1 : Shape := ⟨2, ![8192, 1]⟩
abbrev S_ : Shape := ⟨0, ![]⟩
abbrev S1048576 : Shape := ⟨1, ![1048576]⟩
abbrev S1048576x16 : Shape := ⟨2, ![1048576, 16]⟩
abbrev S65536 : Shape := ⟨1, ![65536]⟩
abbrev S1048576x1 : Shape := ⟨2, ![1048576, 1]⟩

abbrev nBuf : Space → Nat
  | .hbm => 45
  | .vmem => 0
  | .smem => 0
  | _ => 0

abbrev bufTy : (tb : Table) → Fin (tcTables nBuf tb) → BufTy
  | .hbm, ⟨0, _⟩ => ⟨S8192x128x16, .f32⟩
  | .hbm, ⟨1, _⟩ => ⟨S8192x128x16, .f32⟩
  | .hbm, ⟨2, _⟩ => ⟨S8192x128, .i32⟩
  | .hbm, ⟨3, _⟩ => ⟨S8192x8, .f32⟩
  | .hbm, ⟨4, _⟩ => ⟨S8192, .i32⟩
  | .hbm, ⟨5, _⟩ => ⟨S8192x1, .i32⟩
  | .hbm, ⟨6, _⟩ => ⟨S_, .i32⟩
  | .hbm, ⟨7, _⟩ => ⟨S8192x1, .i32⟩
  | .hbm, ⟨8, _⟩ => ⟨S8192x1, .i32⟩
  | .hbm, ⟨9, _⟩ => ⟨S8192x128, .i32⟩
  | .hbm, ⟨10, _⟩ => ⟨S8192x128, .i32⟩
  | .hbm, ⟨11, _⟩ => ⟨S1048576, .i32⟩
  | .hbm, ⟨12, _⟩ => ⟨S1048576x16, .f32⟩
  | .hbm, ⟨13, _⟩ => ⟨S1048576x16, .f32⟩
  | .hbm, ⟨14, _⟩ => ⟨S1048576x16, .f32⟩
  | .hbm, ⟨15, _⟩ => ⟨S_, .f32⟩
  | .hbm, ⟨16, _⟩ => ⟨S1048576, .f32⟩
  | .hbm, ⟨17, _⟩ => ⟨S_, .f32⟩
  | .hbm, ⟨18, _⟩ => ⟨S65536, .f32⟩
  | .hbm, ⟨19, _⟩ => ⟨S1048576x1, .i32⟩
  | .hbm, ⟨20, _⟩ => ⟨S65536, .f32⟩
  | .hbm, ⟨21, _⟩ => ⟨S1048576x16, .f32⟩
  | .hbm, ⟨22, _⟩ => ⟨S_, .f32⟩
  | .hbm, ⟨23, _⟩ => ⟨S1048576, .f32⟩
  | .hbm, ⟨24, _⟩ => ⟨S_, .f32⟩
  | .hbm, ⟨25, _⟩ => ⟨S65536, .f32⟩
  | .hbm, ⟨26, _⟩ => ⟨S1048576x1, .i32⟩
  | .hbm, ⟨27, _⟩ => ⟨S65536, .f32⟩
  | .hbm, ⟨28, _⟩ => ⟨S65536, .f32⟩
  | .hbm, ⟨29, _⟩ => ⟨S65536, .f32⟩
  | .hbm, ⟨30, _⟩ => ⟨S65536, .f32⟩
  | .hbm, ⟨31, _⟩ => ⟨S_, .i32⟩
  | .hbm, ⟨32, _⟩ => ⟨S1048576, .i32⟩
  | .hbm, ⟨33, _⟩ => ⟨S1048576, .i1⟩
  | .hbm, ⟨34, _⟩ => ⟨S_, .i32⟩
  | .hbm, ⟨35, _⟩ => ⟨S1048576, .i32⟩
  | .hbm, ⟨36, _⟩ => ⟨S1048576, .i32⟩
  | .hbm, ⟨37, _⟩ => ⟨S1048576, .i32⟩
  | .hbm, ⟨38, _⟩ => ⟨S1048576x1, .i32⟩
  | .hbm, ⟨39, _⟩ => ⟨S1048576, .f32⟩
  | .hbm, ⟨40, _⟩ => ⟨S1048576x1, .f32⟩
  | .hbm, ⟨41, _⟩ => ⟨S1048576x16, .f32⟩
  | .hbm, ⟨42, _⟩ => ⟨S1048576x16, .f32⟩
  | .hbm, ⟨43, _⟩ => ⟨S1048576x16, .f32⟩
  | .hbm, ⟨44, _⟩ => ⟨S8192x128x16, .f32⟩
  | _, _ => ⟨S8192x128x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  shapeCasts_S8192x128_S1048576 : S8192x128.ShapeCasts S1048576
  shapeCasts_S8192x128x16_S1048576x16 : S8192x128x16.ShapeCasts S1048576x16
  reducesTo_S1048576x16_S1048576_d1 : S1048576x16.ReducesTo [1] S1048576
  h_S_ : 0 < S_.numel
  bcast_S_S65536 : S_.BroadcastsInDim S65536 (![] : Fin 0 → Fin S65536.rank)
  bcast_S1048576_S1048576x1_0 : S1048576.BroadcastsInDim S1048576x1 (![0] : Fin 1 → Fin S1048576x1.rank)
  shapeCasts_S8192x8_S65536 : S8192x8.ShapeCasts S65536
  bcast_S_S1048576 : S_.BroadcastsInDim S1048576 (![] : Fin 0 → Fin S1048576.rank)
  bcast_S1048576x1_S1048576x16_0_1 : S1048576x1.BroadcastsInDim S1048576x16 (![0, 1] : Fin 2 → Fin S1048576x16.rank)
  shapeCasts_S1048576x16_S8192x128x16 : S1048576x16.ShapeCasts S8192x128x16
  scatter_S65536_S1048576x1_S1048576_n_0_0_1_wf : ScatterDims.WF S65536 S1048576x1 S1048576 [] [0] [0] 1
  gather_S65536_S1048576x1_S1048576_n_0_n_n_0_1_1_wf : GatherDims.WF S65536 S1048576x1 S1048576 [] [0] [] [0] [] 1 ![1]

variable [Facts₀]

def scatter_S65536_S1048576x1_S1048576_n_0_0_1 : ScatterDims S65536 S1048576x1 S1048576 where
  updateWindowDims := []
  insertedWindowDims := [0]
  scatterDimsToOperandDims := [0]
  indexVectorDim := 1
  wf := scatter_S65536_S1048576x1_S1048576_n_0_0_1_wf
def gather_S65536_S1048576x1_S1048576_n_0_n_n_0_1_1 : GatherDims S65536 S1048576x1 S1048576 where
  offsetDims := []
  collapsedSliceDims := [0]
  operandBatchingDims := []
  startIndicesBatchingDims := []
  startIndexMap := [0]
  indexVectorDim := 1
  sliceSizes := ![1]
  wf := gather_S65536_S1048576x1_S1048576_n_0_n_n_0_1_1_wf

class Facts : Prop extends Facts₀ where

variable [Facts]
-- ==== Proof.Spec.lean ====
/-
  The constrained projection, one batch row at a time.

  A batch row holds 128 atoms with 16 features each: `c a f` and `q a f`, a segment id `seg a` per atom and a charge
  `ch s` per segment `s < 8`. For a segment `s` let `cq_s` be the sum of `⟨c a, q a⟩` over the atoms of the segment and `qq_s` the
  sum of `⟨q a, q a⟩`; the segment's multiplier is `lam s = (cq_s - ch s) / qq_s`, and the result is
  `c a f - q a f * lam (seg a)`. The multiplier of an atom's own segment is picked out of the eight by a sum of
  eight guarded terms of which at most one is not zero; for a segment id below 8 that sum is the multiplier itself
  (`pick_of_lt`): zero is neutral for the addition of extended reals, infinities included.
-/
import Idealize.ShloMosaic.PureOps.Ideal
import Idealize.ShloMosaic.Lib.ValueIdx

noncomputable section

namespace Cert.Spec

open Idealize.ShloMosaic Idealize.ShloMosaic.ValueIdx

/-- The inner product of two feature vectors. -/
def dotF (u v : Fin 16 → EReal) : EReal := ∑ f : Fin 16, u f * v f

/-- The sum of a per-atom quantity over the atoms whose segment id is `s`. -/
def segSum (seg : Fin 128 → BitVec 32) (w : Fin 128 → EReal) (s : BitVec 32) : EReal :=
  ∑ a : Fin 128, if seg a = s then w a else 0

/-- Segment `s`'s multiplier: `(Σ_{a ∈ s} ⟨c a, q a⟩ - ch s) / Σ_{a ∈ s} ⟨q a, q a⟩`. -/
def lamOf (c q : Fin 128 → Fin 16 → EReal) (seg : Fin 128 → BitVec 32) (ch : Fin 8 → EReal) (s : Fin 8) : EReal :=
  Ideal.div (segSum seg (fun a => dotF (c a) (q a)) (BitVec.ofNat 32 s.val) - ch s)
    (segSum seg (fun a => dotF (q a) (q a)) (BitVec.ofNat 32 s.val))

/-- The multiplier of segment id `w` picked out of the eight: a sum of eight guarded terms. -/
def pick (l : Fin 8 → EReal) (w : BitVec 32) : EReal :=
  0 + (if w = 0#32 then l 0 else 0) + (if w = 1#32 then l 1 else 0) + (if w = 2#32 then l 2 else 0)
    + (if w = 3#32 then l 3 else 0) + (if w = 4#32 then l 4 else 0) + (if w = 5#32 then l 5 else 0)
    + (if w = 6#32 then l 6 else 0) + (if w = 7#32 then l 7 else 0)

/-- For a segment id below 8 exactly one guard holds, and the sum is that segment's multiplier. -/
theorem pick_of_lt (l : Fin 8 → EReal) (w : BitVec 32) (h : w.toNat < 8) : pick l w = l ⟨w.toNat, h⟩ := by
  have key : ∀ n : Fin 8, pick l (BitVec.ofNat 32 n.val) = l n := by
    intro n
    fin_cases n <;> simp [pick]
  calc pick l w = pick l (BitVec.ofNat 32 (⟨w.toNat, h⟩ : Fin 8).val) := by
        congr 1
        apply BitVec.eq_of_toNat_eq
        have := w.isLt
        simp only [BitVec.toNat_ofNat]
        omega
    _ = l ⟨w.toNat, h⟩ := key _

/-- One batch row's result at atom `a`, feature `f`. -/
def rowOut (c q : Fin 128 → Fin 16 → EReal) (seg : Fin 128 → BitVec 32) (ch : Fin 8 → EReal) (a : Fin 128) (f : Fin 16) :
    EReal :=
  c a f - q a f * pick (lamOf c q seg ch) (seg a)

/-- The whole result at batch row `b`, atom `a`, feature `f`. -/
def Gat (x0 x1 : (⟨3, ![8192, 128, 16]⟩ : Shape).Idx → EReal) (x2 : (⟨2, ![8192, 128]⟩ : Shape).Idx → BitVec 32)
    (x3 : (⟨2, ![8192, 8]⟩ : Shape).Idx → EReal) (b : Fin 8192) (a : Fin 128) (f : Fin 16) : EReal :=
  rowOut (fun a f => x0 (ix3 b a f)) (fun a f => x1 (ix3 b a f)) (fun a => x2 (ix2 b a)) (fun s => x3 (ix2 b s)) a f

/-- The whole result array as one function of the four argument arrays. -/
def G (x0 x1 : (⟨3, ![8192, 128, 16]⟩ : Shape).Idx → EReal) (x2 : (⟨2, ![8192, 128]⟩ : Shape).Idx → BitVec 32)
    (x3 : (⟨2, ![8192, 8]⟩ : Shape).Idx → EReal) : (⟨3, ![8192, 128, 16]⟩ : Shape).Idx → EReal :=
  fun i => Gat x0 x1 x2 x3 ⟨(i 0).val, (i 0).isLt⟩ ⟨(i 1).val, (i 1).isLt⟩ ⟨(i 2).val, (i 2).isLt⟩

theorem G_ix3 (x0 x1 : (⟨3, ![8192, 128, 16]⟩ : Shape).Idx → EReal) (x2 : (⟨2, ![8192, 128]⟩ : Shape).Idx → BitVec 32)
    (x3 : (⟨2, ![8192, 8]⟩ : Shape).Idx → EReal) (b : Fin 8192) (a : Fin 128) (f : Fin 16) :
    G x0 x1 x2 x3 (ix3 b a f) = Gat x0 x1 x2 x3 b a f := rfl

end Cert.Spec

end
-- ==== Proof.LibColumn.lean ====
/-
  A column vector made from a vector, and broadcast along rows, read at an index.

  A vector `x : [a]` cast to the column `[a, 1]` reads, at `(i, u)`, `x i`; a column `v : [a, 1]` broadcast to `[a, b]`
  reads, at `(p, c)`, the column's entry of row `p`. Together: a per-row quantity (a row's maximum, a row's sum) kept as a
  column and subtracted from or divided into every entry of its row.
-/
import Idealize.ShloMosaic.Lib.Pipeline.Value
import Idealize.ShloMosaic.Lib.ValueIdx
import Idealize.ShloMosaic.Lib.ValueLayout

noncomputable section

namespace Cert.Lib.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and broadcast along the rows reads, at `(p, c)`, the vector at `p`. -/
theorem broadcastTo_column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.Lib.Column

end
-- ==== Proof.LibLaneSums.lean ====
/-
  Sums over the last axis, and a value kept along a new last axis, read at an index.

  On the extended reals a `vector.multi_reduction <add>` over the last axis of a rank-2 array `[a, b]` reads, at row `r`,
  the sum over `k` of the entries `(r, k)`; over the last axis of a rank-3 array `[a, b, c]` it reads, at `(p, q)`, the sum
  over `k` of the entries `(p, q, k)`. A rank-2 array `[a, b]` cast to `[a, b, 1]` and broadcast to `[a, b, c]` reads, at
  `(p, q, k)`, the array at `(p, q)`: a per-position quantity applied to every entry of the last axis.
-/
import Idealize.ShloMosaic.PureOps.Ideal.Laws
import Idealize.ShloMosaic.Lib.Pipeline.Value
import Idealize.ShloMosaic.Lib.ValueIdx

noncomputable section

namespace Cert.Lib.LaneSums

open Idealize.ShloMosaic Idealize.ShloMosaic.ValueIdx

/-- The sum over the columns of a rank-2 array, at row `r`. -/
theorem sum_axis1_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v _ h hφ hacc (ix1 r)).trans ?_
  refine Finset.sum_congr rfl fun k _ => congrArg v ?_
  funext c
  apply Fin.ext
  match c with
  | ⟨0, _⟩ => rfl
  | ⟨1, _⟩ => rfl

/-- The sum over the last axis of a rank-3 array, at `(p, q)`. -/
theorem sum_axis2_apply {a b c : ℕ} (v : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (p : Fin a) (q : Fin b) :
    multiReduction .add [2] ⟨2, ![a, b]⟩ v 0x00000000#32 h hφ hacc (ix2 p q) = ∑ k : Fin c, v (ix3 p q k) := by
  refine (Ideal.multiReduction_add_single v _ h hφ hacc (ix2 p q)).trans ?_
  refine Finset.sum_congr rfl fun k _ => congrArg v ?_
  funext d
  apply Fin.ext
  match d with
  | ⟨0, _⟩ => rfl
  | ⟨1, _⟩ => rfl
  | ⟨2, _⟩ => rfl

variable {α : Type}

/-- An `[a, b]` array cast to `[a, b, 1]` and broadcast to `[a, b, c]` reads, at `(p, q, k)`, the array at `(p, q)`. -/
theorem broadcastTo_lastAxis_apply {a b c : ℕ} (x : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (p : Fin a) (q : Fin b) (k : Fin c) :
    broadcastTo ⟨3, ![a, b, c]⟩ (shapeCast ⟨3, ![a, b, 1]⟩ x h) h' (ix3 p q k) = x (ix2 p q) := by
  refine (broadcastTo_apply _ h' (ix3 p q k) (ix3 p q (0 : Fin 1)) fun ax => ?_).trans ?_
  · match ax with
    | ⟨0, _⟩ =>
      show p.val = if a = 1 then 0 else p.val
      split
      · have := p.isLt; omega
      · rfl
    | ⟨1, _⟩ =>
      show q.val = if b = 1 then 0 else q.val
      split
      · have := q.isLt; omega
      · rfl
    | ⟨2, _⟩ => rfl
  · refine shapeCast_apply x h _ _ ?_
    rw [Shape.rowMajor_val_two, Shape.rowMajor_val_three]
    show p.val * b + q.val = (p.val * b + q.val) * 1 + 0
    omega

end Cert.Lib.LaneSums

end
-- ==== Proof.KernelBlock.lean ====
/-
  What the kernel body leaves in its output block: the constrained projection of each of the block's 64 batch rows.

  The body holds 64 batch rows at once. It forms the two inner products per atom (sums over the 16 features), and
  then, for each segment id `s = 0, …, 7`, masks the atoms of that id, sums both inner products over the masked atoms of each row,
  subtracts the row's charge of segment `s`, divides, and adds the quotient, masked again, into a per-atom multiplier
  that starts at zero (`step`). Read at row `r`, atom `a`, the multiplier is the sum of eight guarded terms
  `Spec.pick`, and the stored value is `c - q * multiplier`.
-/
import proofs.«407845_j76063870812744_1_alg».proof.Proof.Gen.KernelIdeal.Frame
import proofs.«407845_j76063870812744_1_alg».proof.Proof.Spec
import proofs.«407845_j76063870812744_1_alg».proof.Proof.LibColumn
import proofs.«407845_j76063870812744_1_alg».proof.Proof.LibLaneSums
import Idealize.ShloMosaic.PureOps.Ideal.Laws
import Idealize.ShloMosaic.Lib.ValueLayout
import Idealize.ShloMosaic.Lib.Pipeline.Value
import Idealize.ShloMosaic.Lib.StableHlo.Predicate

noncomputable section

namespace Cert.KernelBlock

open Idealize.ShloMosaic Idealize.ShloMosaic.ValueIdx Cert.KernelIdeal Cert.KernelIdeal.Gen

theorem hz3 : (![0, 0, 0] : Fin 3 → Nat) = fun _ => 0 := funext fun a => by fin_cases a <;> rfl
theorem hz2 : (![0, 0] : Fin 2 → Nat) = fun _ => 0 := funext fun a => by fin_cases a <;> rfl

/-- The mask of the atoms whose segment id is the word `s`. -/
def maskOf (y2 : Vec Ideal S64x128 .i32) (s : BitVec 32) : IVec S64x128 1 := cmpi .eq y2 (broadcast S64x128 s)

/-- A per-atom quantity summed over the masked atoms of each row, kept as a column. -/
def maskedSum (mk : IVec S64x128 1) (v : FVec Ideal S64x128 .f32) : FVec Ideal S64x1 .f32 :=
  shapeCast S64x1 (multiReduction .add [1] S64 (select mk v (broadcast S64x128 (Scalar.ofBits .f32 0x00000000#32)))
    0x00000000#32 reduces_S64x128_S64 (.inl rfl) rfl) shapeCasts_S64_S64x1

/-- One segment's contribution to the per-atom multiplier: the segment's quotient on the masked atoms, zero elsewhere. -/
def step (mk : IVec S64x128 1) (v5 v7 : FVec Ideal S64x128 .f32) (chs : FVec Ideal S64x1 .f32) : FVec Ideal S64x128 .f32 :=
  select mk (broadcastTo S64x128 (shapeCast S64x1 (divf (subf (maskedSum mk v5) chs) (maskedSum mk v7)) shapeCasts_S64x1_S64x1)
    broadcasts_S64x1_S64x128) (broadcast S64x128 (Scalar.ofBits .f32 0x00000000#32))

theorem mask_iff (y2 : Vec Ideal S64x128 .i32) (s : BitVec 32) (r : Fin 64) (a : Fin 128) :
    maskOf y2 s (ix2 r a) = 1#1 ↔ y2 (ix2 r a) = s :=
  StableHlo.Predicate.cmpi_eq_iff

theorem maskedSum_apply (mk : IVec S64x128 1) (v : FVec Ideal S64x128 .f32) (r : Fin 64) (u : Fin 1) :
    maskedSum mk v (ix2 r u) = ∑ k : Fin 128, if mk (ix2 r k) = 1#1 then v (ix2 r k) else 0 := by
  unfold maskedSum
  refine (Cert.Lib.Column.shapeCast_a_a1_apply _ shapeCasts_S64_S64x1 r u).trans ?_
  refine (Cert.Lib.LaneSums.sum_axis1_apply _ reduces_S64x128_S64 (.inl rfl) rfl r).trans ?_
  refine Finset.sum_congr rfl fun k _ => ?_
  show Scalar.select (mk (ix2 r k)) (v (ix2 r k)) (Ideal.ofBits .f32 0x00000000#32) = _
  rw [Ideal.ofBits_zero_f32]
  rfl

theorem step_apply (mk : IVec S64x128 1) (v5 v7 : FVec Ideal S64x128 .f32) (chs : FVec Ideal S64x1 .f32) (r : Fin 64) (a : Fin 128) :
    step mk v5 v7 chs (ix2 r a) = if mk (ix2 r a) = 1#1 then
        Ideal.div ((∑ k : Fin 128, if mk (ix2 r k) = 1#1 then v5 (ix2 r k) else 0) - chs (ix2 r (0 : Fin 1)))
          (∑ k : Fin 128, if mk (ix2 r k) = 1#1 then v7 (ix2 r k) else 0)
      else 0 := by
  unfold step
  show Scalar.select (mk (ix2 r a)) _ (Ideal.ofBits .f32 0x00000000#32) = _
  rw [Ideal.ofBits_zero_f32, Cert.Lib.Column.broadcastTo_a1_ab_apply, shapeCast_self]
  show (if mk (ix2 r a) = 1 then Ideal.div (maskedSum mk v5 (ix2 r 0) - chs (ix2 r 0)) (maskedSum mk v7 (ix2 r 0)) else 0) = _
  rw [maskedSum_apply, maskedSum_apply]
  rfl

/-- The inner product `⟨c, q⟩` of an atom's feature vectors. -/
theorem pay2_apply (y0 y1 : Vec Ideal S64x128x16 .f32) (r : Fin 64) (a : Fin 128) :
    k0_pay2 (F := Ideal) y0 y1 (ix2 r a) = Spec.dotF (fun f => y0 (ix3 r a f)) (fun f => y1 (ix3 r a f)) := by
  unfold k0_pay2
  exact (Cert.Lib.LaneSums.sum_axis2_apply _ reduces_S64x128x16_S64x128 (.inl rfl) rfl r a).trans rfl

/-- The inner product `⟨q, q⟩`. -/
theorem pay3_apply (y1 : Vec Ideal S64x128x16 .f32) (r : Fin 64) (a : Fin 128) :
    k0_pay3 (F := Ideal) y1 (ix2 r a) = Spec.dotF (fun f => y1 (ix3 r a f)) (fun f => y1 (ix3 r a f)) := by
  unfold k0_pay3
  exact (Cert.Lib.LaneSums.sum_axis2_apply _ reduces_S64x128x16_S64x128 (.inl rfl) rfl r a).trans rfl

/-- Segment `s`'s step on the block: its mask, the two inner products, and column `s` of the charges. -/
def segStep (y0 y1 : Vec Ideal S64x128x16 .f32) (y2 : Vec Ideal S64x128 .i32) (y3 : Vec Ideal S64x8 .f32) (s : Fin 8)
    (h : S64x8.Slices ![0, s.val] S64x1) : FVec Ideal S64x128 .f32 :=
  step (maskOf y2 (BitVec.ofNat 32 s.val)) (k0_pay2 y0 y1) (k0_pay3 y1) (extractStridedSlice S64x1 ![0, s.val] y3 h)

/-- At row `r`, atom `a`: segment `s`'s multiplier of row `r` if the atom's id is `s`, zero otherwise. -/
theorem segStep_apply (y0 y1 : Vec Ideal S64x128x16 .f32) (y2 : Vec Ideal S64x128 .i32) (y3 : Vec Ideal S64x8 .f32) (s : Fin 8)
    (h : S64x8.Slices ![0, s.val] S64x1) (r : Fin 64) (a : Fin 128) :
    segStep y0 y1 y2 y3 s h (ix2 r a) = if y2 (ix2 r a) = BitVec.ofNat 32 s.val then
        Spec.lamOf (fun a f => y0 (ix3 r a f)) (fun a f => y1 (ix3 r a f)) (fun a => y2 (ix2 r a)) (fun s => y3 (ix2 r s)) s
      else 0 := by
  unfold segStep
  rw [step_apply, slice2_axis1_apply s.val y3 h r (0 : Fin 1) s (by simp)]
  simp only [mask_iff, pay2_apply, pay3_apply]
  rfl

/-- The per-atom multiplier the body accumulates: zero plus the eight segments' steps. -/
def lamv (y0 y1 : Vec Ideal S64x128x16 .f32) (y2 : Vec Ideal S64x128 .i32) (y3 : Vec Ideal S64x8 .f32) : FVec Ideal S64x128 .f32 :=
  addf (addf (addf (addf (addf (addf (addf (addf (broadcast S64x128 (Scalar.ofBits .f32 0x00000000#32))
    (segStep y0 y1 y2 y3 0 slices_S64x8_o0_0_S64x1)) (segStep y0 y1 y2 y3 1 slices_S64x8_o0_1_S64x1))
    (segStep y0 y1 y2 y3 2 slices_S64x8_o0_2_S64x1)) (segStep y0 y1 y2 y3 3 slices_S64x8_o0_3_S64x1))
    (segStep y0 y1 y2 y3 4 slices_S64x8_o0_4_S64x1)) (segStep y0 y1 y2 y3 5 slices_S64x8_o0_5_S64x1))
    (segStep y0 y1 y2 y3 6 slices_S64x8_o0_6_S64x1)) (segStep y0 y1 y2 y3 7 slices_S64x8_o0_7_S64x1)

/-- The block the body stores: `c - q * multiplier`, the multiplier applied to all 16 features of its atom. -/
theorem out_eq (y0 y1 : Vec Ideal S64x128x16 .f32) (y2 : Vec Ideal S64x128 .i32) (y3 : Vec Ideal S64x8 .f32) :
    out0_4 (F := Ideal) y0 y1 y2 y3 = subf y0 (mulf y1 (broadcastTo S64x128x16
      (shapeCast S64x128x1 (lamv y0 y1 y2 y3) shapeCasts_S64x128_S64x128x1) broadcasts_S64x128x1_S64x128x16)) := by
  unfold out0_4
  rw [View.canon_unit_zero hz3]
  simp only [View.ld_unit_zero (S := S64x128x16) hz3, View.ld_unit_zero (S := S64x128) hz2, View.ld_unit_zero (S := S64x8) hz2]
  rfl

/-- The output block at row `r`, atom `a`, feature `f` is the row's projection. -/
theorem out_apply (y0 y1 : Vec Ideal S64x128x16 .f32) (y2 : Vec Ideal S64x128 .i32) (y3 : Vec Ideal S64x8 .f32)
    (r : Fin 64) (a : Fin 128) (f : Fin 16) :
    out0_4 (F := Ideal) y0 y1 y2 y3 (ix3 r a f)
      = Spec.rowOut (fun a f => y0 (ix3 r a f)) (fun a f => y1 (ix3 r a f)) (fun a => y2 (ix2 r a)) (fun s => y3 (ix2 r s)) a f := by
  rw [out_eq]
  show y0 (ix3 r a f) - y1 (ix3 r a f) * _ = _
  rw [Cert.Lib.LaneSums.broadcastTo_lastAxis_apply]
  unfold lamv
  simp only [addf_apply, segStep_apply]
  show y0 (ix3 r a f) - y1 (ix3 r a f) * (Ideal.ofBits .f32 0x00000000#32 + _ + _ + _ + _ + _ + _ + _ + _) = _
  rw [Ideal.ofBits_zero_f32]
  rfl

end Cert.KernelBlock

end
-- ==== Proof.KernelArray.lean ====
/-
  The kernel's run leaves `Spec.G` of the argument arrays in its result array.

  Grid point `t` of the 128 stages batch rows `64 t … 64 t + 63` of every argument and writes the same rows of the result:
  row `r` of a block is batch row `64 t + r` of its array. The body's output block holds each of its rows' projection
  (`KernelBlock.out_apply`), a function of that batch row's data alone, so what point `t` writes back is block `t` of `Spec.G`;
  the 128 blocks cover the result array (batch row `b` lies in block `b / 64`).
-/
import proofs.«407845_j76063870812744_1_alg».proof.Proof.Gen.KernelIdeal.Value
import proofs.«407845_j76063870812744_1_alg».proof.Proof.KernelBlock

noncomputable section

namespace Cert.KernelArray

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value

variable (m : (ℓ : Loc nD τ sig) → Buf (Elt Ideal) ℓ) (ρ : Dev nD → PrngReg)

/-- Every window's block index at point `t` is `t` on the batch axis and zero on the others. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 3) = t.val ∧ win0_4.index t (1 : Fin 3) = 0 ∧ win0_4.index t (2 : Fin 3) = 0) :=
  (by decide +kernel : ∀ t : Fin grid0.N, _)

/-- Batch row `64 t + r`: row `r` of point `t`'s blocks. -/
def rowOf (t : Fin cfg0.N) (r : Fin 64) : Fin 8192 :=
  ⟨t.val * 64 + r.val, by have h : t.val < 128 := N_0 ▸ t.isLt; have := r.isLt; omega⟩

/-- The input blocks at point `t`, at their literal types. -/
abbrev blkC (c : Dev nD) (t : Fin cfg0.N) : Vec Ideal S64x128x16 .f32 := iblk m c 0 t
abbrev blkQ (c : Dev nD) (t : Fin cfg0.N) : Vec Ideal S64x128x16 .f32 := iblk m c 1 t
abbrev blkSeg (c : Dev nD) (t : Fin cfg0.N) : Vec Ideal S64x128 .i32 := iblk m c 2 t
abbrev blkCh (c : Dev nD) (t : Fin cfg0.N) : Vec Ideal S64x8 .f32 := iblk m c 3 t

theorem blkC_apply (c : Dev nD) (t : Fin cfg0.N) (r : Fin 64) (a : Fin 128) (f : Fin 16) :
    blkC m c t (ix3 r a f) = (V m c main_arg0 : S8192x128x16.Idx → EReal) (ix3 (rowOf t r) a f) := by
  obtain ⟨⟨e0, e1, e2⟩, -⟩ := idx_facts t
  show V m c main_arg0 (((cfg0.win 0).blk t).view.emb (ix3 r a f)) = V m c main_arg0 (ix3 (rowOf t r) a f)
  refine congrArg _ (funext fun ax => Fin.ext ?_)
  match ax with
  | ⟨0, _⟩ => show win0_0.index t (0 : Fin 3) * 64 + 1 * r.val = t.val * 64 + r.val; omega
  | ⟨1, _⟩ => show win0_0.index t (1 : Fin 3) * 128 + 1 * a.val = a.val; omega
  | ⟨2, _⟩ => show win0_0.index t (2 : Fin 3) * 16 + 1 * f.val = f.val; omega

theorem blkQ_apply (c : Dev nD) (t : Fin cfg0.N) (r : Fin 64) (a : Fin 128) (f : Fin 16) :
    blkQ m c t (ix3 r a f) = (V m c main_arg1 : S8192x128x16.Idx → EReal) (ix3 (rowOf t r) a f) := by
  obtain ⟨-, ⟨e0, e1, e2⟩, -⟩ := idx_facts t
  show V m c main_arg1 (((cfg0.win 1).blk t).view.emb (ix3 r a f)) = V m c main_arg1 (ix3 (rowOf t r) a f)
  refine congrArg _ (funext fun ax => Fin.ext ?_)
  match ax with
  | ⟨0, _⟩ => show win0_1.index t (0 : Fin 3) * 64 + 1 * r.val = t.val * 64 + r.val; omega
  | ⟨1, _⟩ => show win0_1.index t (1 : Fin 3) * 128 + 1 * a.val = a.val; omega
  | ⟨2, _⟩ => show win0_1.index t (2 : Fin 3) * 16 + 1 * f.val = f.val; omega

theorem blkSeg_apply (c : Dev nD) (t : Fin cfg0.N) (r : Fin 64) (a : Fin 128) :
    blkSeg m c t (ix2 r a) = (V m c main_arg2 : S8192x128.Idx → BitVec 32) (ix2 (rowOf t r) a) := by
  obtain ⟨-, -, ⟨e0, e1⟩, -⟩ := idx_facts t
  show V m c main_arg2 (((cfg0.win 2).blk t).view.emb (ix2 r a)) = V m c main_arg2 (ix2 (rowOf t r) a)
  refine congrArg _ (funext fun ax => Fin.ext ?_)
  match ax with
  | ⟨0, _⟩ => show win0_2.index t (0 : Fin 2) * 64 + 1 * r.val = t.val * 64 + r.val; omega
  | ⟨1, _⟩ => show win0_2.index t (1 : Fin 2) * 128 + 1 * a.val = a.val; omega

theorem blkCh_apply (c : Dev nD) (t : Fin cfg0.N) (r : Fin 64) (s : Fin 8) :
    blkCh m c t (ix2 r s) = (V m c main_arg3 : S8192x8.Idx → EReal) (ix2 (rowOf t r) s) := by
  obtain ⟨-, -, -, ⟨e0, e1⟩, -⟩ := idx_facts t
  show V m c main_arg3 (((cfg0.win 3).blk t).view.emb (ix2 r s)) = V m c main_arg3 (ix2 (rowOf t r) s)
  refine congrArg _ (funext fun ax => Fin.ext ?_)
  match ax with
  | ⟨0, _⟩ => show win0_3.index t (0 : Fin 2) * 64 + 1 * r.val = t.val * 64 + r.val; omega
  | ⟨1, _⟩ => show win0_3.index t (1 : Fin 2) * 8 + 1 * s.val = s.val; omega

/-- Row `r`, atom `a`, feature `f` of the output block at point `t` is element `(64 t + r, a, f)` of the result array. -/
theorem emb_out (t : Fin cfg0.N) (r : Fin 64) (a : Fin 128) (f : Fin 16) :
    (((cfg0.win 4).blk t).view.emb (ix3 r a f) : S8192x128x16.Idx) = ix3 (rowOf t r) a f := by
  obtain ⟨-, -, -, -, ⟨e0, e1, e2⟩⟩ := idx_facts t
  refine funext fun ax => Fin.ext ?_
  match ax with
  | ⟨0, _⟩ => show win0_4.index t (0 : Fin 3) * 64 + 1 * r.val = t.val * 64 + r.val; omega
  | ⟨1, _⟩ => show win0_4.index t (1 : Fin 3) * 128 + 1 * a.val = a.val; omega
  | ⟨2, _⟩ => show win0_4.index t (2 : Fin 3) * 16 + 1 * f.val = f.val; omega

/-- The result as a function of the arrays the region finds. -/
abbrev Gv (c : Dev nD) : S8192x128x16.Idx → EReal :=
  Spec.G (V m c main_arg0) (V m c main_arg1) (V m c main_arg2) (V m c main_arg3)

/-- WHAT POINT `t` WRITES BACK is block `t` of `Spec.G` of the argument arrays. -/
theorem flushed_eq (c : Dev nD) (t : Fin cfg0.N) :
    (dats m 0 c).flushed 4 t = ((cfg0.win 4).blk t).view.read (Elt Ideal) (Gv m c) := by
  rw [Value.flushed4]
  funext j
  obtain ⟨r, a, f, rfl⟩ : ∃ (r : Fin 64) (a : Fin 128) (f : Fin 16), j = ix3 r a f := ⟨j 0, j 1, j 2, eq_ix3 j⟩
  show out0_4 (blkC m c t) (blkQ m c t) (blkSeg m c t) (blkCh m c t) (ix3 r a f) = Gv m c (((cfg0.win 4).blk t).view.emb (ix3 r a f))
  rw [emb_out, KernelBlock.out_apply]
  show _ = Spec.Gat (V m c main_arg0) (V m c main_arg1) (V m c main_arg2) (V m c main_arg3) (rowOf t r) a f
  unfold Spec.Gat
  simp only [blkC_apply, blkQ_apply, blkSeg_apply, blkCh_apply]

/-- An index of the result array is in point `t`'s block iff each coordinate is in the block's range on its axis. -/
theorem mem_blk (t : Fin cfg0.N) (i : S8192x128x16.Idx) :
    i ∈ ((cfg0.win 4).blk t).view.set ↔ ∀ a : Fin 3, win0_4.index t a * S64x128x16.size a ≤ (i a).val
      ∧ (i a).val < win0_4.index t a * S64x128x16.size a + S64x128x16.size a := by
  show i ∈ ((View.whole main_v0).slice (win0_4.rect t)).set ↔ _
  rw [View.set_slice_whole, Rect.mem_set_unit]
  exact Iff.rfl

/-- Every element of the result array lies in the block of point `b / 64`. -/
theorem cover (i : S8192x128x16.Idx) : ∃ t : Fin cfg0.N, (cfg0.win 4).flush t = true ∧ i ∈ ((cfg0.win 4).blk t).view.set := by
  have h0 : (i 0).val < 8192 := (i 0).isLt
  have h1 : (i 1).val < 128 := (i 1).isLt
  have h2 : (i 2).val < 16 := (i 2).isLt
  let t : Fin cfg0.N := ⟨(i 0).val / 64, by rw [show cfg0.N = 128 from N_0]; omega⟩
  have ht : t.val = (i 0).val / 64 := rfl
  obtain ⟨-, -, -, -, ⟨e0, e1, e2⟩⟩ := idx_facts t
  refine ⟨t, flush0_4 t, ?_⟩
  rw [mem_blk]
  intro a
  match a with
  | ⟨0, _⟩ => show win0_4.index t (0 : Fin 3) * 64 ≤ (i 0).val ∧ (i 0).val < win0_4.index t (0 : Fin 3) * 64 + 64; omega
  | ⟨1, _⟩ => show win0_4.index t (1 : Fin 3) * 128 ≤ (i 1).val ∧ (i 1).val < win0_4.index t (1 : Fin 3) * 128 + 128; omega
  | ⟨2, _⟩ => show win0_4.index t (2 : Fin 3) * 16 ≤ (i 2).val ∧ (i 2).val < win0_4.index t (2 : Fin 3) * 16 + 16; omega

/-- THE RESULT ARRAY after the run is `Spec.G` of the argument arrays. -/
theorem final (c : Dev nD) : (dats m 0 c).arrAt 4 cfg0.N = Gv m c :=
  (dats m 0 c).arrAt_eq_of_cover 4 (Gv m c) (fun t _ => flushed_eq m c t) cover

theorem run : θ_run defs (onTc (τ := τ) (main (F := Ideal))) ⟨m, fun _ => 0, ρ⟩ fun r => ∀ c : Dev nD,
      r.2.mem ((c : Thread nD τ).loc main_v0) = Spec.G (m ((c : Thread nD τ).loc main_arg0)) (m ((c : Thread nD τ).loc main_arg1))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelArray

end
-- ==== Proof.LibScatterVec.lean ====
/-
  A scatter into a vector at a column of positions, read at an index.

  `x.at[idx].add(u)` over a rank-1 operand `x : [N]`, positions `idx : [n, 1]` and updates `u : [n]` (no window
  axes: the operand's one axis is inserted and start-indexed, the index vector on axis 1). Update `p` lands on
  element `k` exactly when position `p`, read signed, is `k`; a position outside `[0, N)` lands nowhere. On the
  extended reals the accumulating scatter is the operand's element plus the sum of the updates landing on it.
-/
import Idealize.ShloMosaic.PureOps
import Idealize.ShloMosaic.PureOps.Ideal
import Idealize.ShloMosaic.Lib.ValueIdx

noncomputable section

namespace Cert.Lib.ScatterVec

open Idealize.ShloMosaic Idealize.ShloMosaic.ValueIdx

/-- Update `p` lands on element `k` iff its position, read signed, is `k`. -/
theorem resultIdx?_eq_some_iff {N n w : Nat} (d : ScatterDims ⟨1, ![N]⟩ ⟨2, ![n, 1]⟩ ⟨1, ![n]⟩)
    (hins : d.insertedWindowDims = [0]) (hsd : d.scatterDimsToOperandDims = [0]) (hivd : d.indexVectorDim = 1)
    (idx : IVec ⟨2, ![n, 1]⟩ w) (p : Fin n) (k : Fin N) :
    d.resultIdx? (ix1 p) idx = some (ix1 k) ↔ (idx (ix2 p (0 : Fin 1))).toInt = (k.val : Int) := by
  have hk : ∀ a : Fin (⟨1, ![N]⟩ : Shape).rank, a ∉ d.sKept := by
    intro a
    have ha : a = 0 := Subsingleton.elim _ _
    subst ha
    simp [ScatterDims.sKept, Shape.kept, hins]
  have hm : (0 : Fin (⟨1, ![N]⟩ : Shape).rank) ∈ d.scatterDimsToOperandDims := by
    rw [hsd]; exact List.mem_singleton.mpr rfl
  have hcoord : ∀ X : Fin (⟨1, ![n]⟩ : Shape).rank, ((ix1 p : (⟨1, ![n]⟩ : Shape).Idx) X).val = p.val := fun X => by
    have hX : X = 0 := Subsingleton.elim _ _
    subst hX; rfl
  have hwin : ∀ a, d.window (ix1 p) a = 0 := fun a => by
    unfold ScatterDims.window; rw [dif_neg (hk a)]
  have hstart : ∀ a, d.start (ix1 p) idx a = (idx (ix2 p (0 : Fin 1))).toInt := fun a => by
    have ha : a = 0 := Subsingleton.elim _ _
    subst ha
    unfold ScatterDims.start
    rw [dif_pos hm]
    congr 2
    funext b
    match b with
    | ⟨0, _⟩ =>
      -- axis 0 is not the index vector's axis: it carries the update's scatter coordinate
      unfold ScatterDims.siIdx
      rw [dif_neg (by rw [hivd]; exact Nat.zero_ne_one)]
      unfold ScatterDims.siCoord
      apply Fin.ext
      rw [Fin.val_cast]
      exact hcoord _
    | ⟨1, _⟩ =>
      -- axis 1 is the index vector's axis: it carries the component's number, the place of operand axis 0 in the map
      unfold ScatterDims.siIdx
      rw [dif_pos (by rw [hivd])]
      apply Fin.ext
      show List.idxOf (0 : Fin (⟨1, ![N]⟩ : Shape).rank) d.scatterDimsToOperandDims = 0
      rw [hsd]; simp
  unfold ScatterDims.resultIdx?
  split
  · -- in range: the landing index is the one with coordinate (start + 0).toNat
    rename_i h
    have h0 := h 0
    rw [hstart, hwin] at h0
    rw [Option.some.injEq]
    constructor
    · intro hf
      have hv : (d.start (ix1 p) idx 0 + (d.window (ix1 p) 0 : Nat)).toNat = k.val :=
        congrArg (fun f : (⟨1, ![N]⟩ : Shape).Idx => (f 0).val) hf
      rw [hstart, hwin] at hv
      omega
    · intro hv
      funext a
      have ha : a = 0 := Subsingleton.elim _ _
      subst ha
      apply Fin.ext
      show (d.start (ix1 p) idx 0 + (d.window (ix1 p) 0 : Nat)).toNat = k.val
      rw [hstart, hwin, hv]
      omega
  · -- out of range: nothing lands, and the position is no element's number
    rename_i h
    constructor
    · intro hf
      cases hf
    · intro hv
      exfalso
      apply h
      intro a
      have ha : a = 0 := Subsingleton.elim _ _
      subst ha
      rw [hstart, hwin, hv]
      have hN : (⟨1, ![N]⟩ : Shape).size 0 = N := rfl
      rw [hN]
      have := k.isLt
      omega

/-- The accumulating scatter on the extended reals, read at element `k`. -/
theorem scatterAdd_apply {N n w : Nat} {φ : FTy} (d : ScatterDims ⟨1, ![N]⟩ ⟨2, ![n, 1]⟩ ⟨1, ![n]⟩)
    (hins : d.insertedWindowDims = [0]) (hsd : d.scatterDimsToOperandDims = [0]) (hivd : d.indexVectorDim = 1)
    (x : FVec Ideal ⟨1, ![N]⟩ φ) (idx : IVec ⟨2, ![n, 1]⟩ w) (upd : FVec Ideal ⟨1, ![n]⟩ φ) (k : Fin N) :
    Host.scatterAdd (F := Ideal) d x idx upd (ix1 k)
      = x (ix1 k) + ∑ p : Fin n, if (idx (ix2 p (0 : Fin 1))).toInt = (k.val : Int) then upd (ix1 p) else 0 := by
  -- the accumulating scatter at an element: the element plus the sum of the updates landing on it
  show x (ix1 k) + ∑ j ∈ Finset.univ.filter (fun j => d.resultIdx? j idx = some (ix1 k)), upd j = _
  congr 1
  rw [Finset.sum_filter]
  -- the update indices are the numbers below n, through their one coordinate
  let e : (⟨1, ![n]⟩ : Shape).Idx ≃ Fin n :=
    ⟨fun j => j 0, fun p => ix1 p, fun j => (eq_ix1 j).symm, fun _ => rfl⟩
  refine Fintype.sum_equiv e _ _ (fun j => ?_)
  obtain ⟨p, rfl⟩ : ∃ p : Fin n, j = ix1 p := ⟨j 0, eq_ix1 j⟩
  exact if_congr (resultIdx?_eq_some_iff d hins hsd hivd idx p k) rfl rfl

end Cert.Lib.ScatterVec

end
-- ==== Proof.RefScatter.lean ====
/-
  The reference's two segment sums, read at a segment.

  The reference numbers the segments of all batch rows together: atom `a` of batch row `b` with segment id `s < 8` belongs to
  global segment `8 b + s`, and the flattened atom `128 b + a` scatters its inner product there. Since `s < 8`, the global
  segment `8 b + s` receives exactly the atoms of batch row `b` whose id is `s`: the scatter's sum at `8 b + s` is the row's
  segment sum.
-/
import proofs.«407845_j76063870812744_1_alg».proof.Proof.Gen.ReferenceIdeal.Read
import proofs.«407845_j76063870812744_1_alg».proof.Proof.Spec
import proofs.«407845_j76063870812744_1_alg».proof.Proof.LibScatterVec
import Idealize.ShloMosaic.Lib.StableHlo.Predicate
import Mathlib.Algebra.BigOperators.Group.Finset.Basic
import Mathlib.Algebra.BigOperators.Fin

noncomputable section

namespace Cert.RefScatter

open Idealize.ShloMosaic Idealize.ShloMosaic.ValueIdx Cert.ReferenceIdeal Cert.ReferenceIdeal.Read

/-- The flattened global segment id of atom `a` of batch row `b`: `8 b + s`. -/
theorem segflat_apply (x2 : (⟨S8192x128, .i32⟩ : BufTy).Contents (Elt Ideal))
    (hseg : ∀ (b : Fin 8192) (a : Fin 128), (x2 (ix2 b a)).toNat < 8) (b : Fin 8192) (a : Fin 128) :
    val_main_v6 (F := Ideal) x2 (ix1 (⟨b.val * 128 + a.val, by omega⟩ : Fin 1048576))
      = BitVec.ofNat 32 (b.val * 8 + (x2 (ix2 b a)).toNat) := by
  have hb := b.isLt
  have ha := a.isLt
  have hs := hseg b a
  have hi : idx_main_v6 (ix1 (⟨b.val * 128 + a.val, by omega⟩ : Fin 1048576)) = ix2 b a :=
    funext fun d => Fin.ext (by
      match d with
      | ⟨0, _⟩ => show (b.val * 128 + a.val) / 128 = b.val; omega
      | ⟨1, _⟩ => show (b.val * 128 + a.val) % 128 = a.val; omega)
  rw [val_main_v6_apply, hi, val_main_v5_apply, val_main_v4_apply, val_main_v3_apply, val_main_v1_apply,
    val_main_v2_apply, val_main_v0_apply, val_main_c_apply]
  apply BitVec.eq_of_toNat_eq
  show ((BitVec.ofNat 32 b.val * 8#32) + x2 (ix2 b a)).toNat = _
  rw [BitVec.toNat_add, BitVec.toNat_mul, BitVec.toNat_ofNat, BitVec.toNat_ofNat, BitVec.toNat_ofNat]
  omega

/-- The flattened atom `128 b + a` of atom `a` of batch row `b`: a bijection of the pairs with the flattened positions. -/
def flatEquiv : Fin 8192 × Fin 128 ≃ Fin 1048576 where
  toFun q := ⟨q.1.val * 128 + q.2.val, by have h1 := q.1.isLt; have h2 := q.2.isLt; omega⟩
  invFun p := (⟨p.val / 128, by have h := p.isLt; omega⟩, ⟨p.val % 128, Nat.mod_lt _ (by decide)⟩)
  left_inv q := by
    obtain ⟨b, a⟩ := q
    have ha := a.isLt
    exact Prod.ext (Fin.ext (by show (b.val * 128 + a.val) / 128 = b.val; omega))
      (Fin.ext (by show (b.val * 128 + a.val) % 128 = a.val; omega))
  right_inv p := Fin.ext (by show p.val / 128 * 128 + p.val % 128 = p.val; omega)

/-- A scatter into zeros at the flattened global segment ids: the element at `8 b + s` is the sum of the updates of the
    atoms of row `b` whose id is `s`. An atom of another row `b'` has global id `8 b' + s'` with `s' < 8`, which is `8 b + s`
    only for `b' = b`. -/
theorem scatter_seg (x2 : (⟨S8192x128, .i32⟩ : BufTy).Contents (Elt Ideal))
    (hseg : ∀ (b : Fin 8192) (a : Fin 128), (x2 (ix2 b a)).toNat < 8)
    (x : FVec Ideal S65536 .f32) (hx : ∀ k : Fin 65536, x (ix1 k) = 0)
    (idx : IVec S1048576x1 32)
    (hidx : ∀ p : Fin 1048576, idx (ix2 p (0 : Fin 1)) = val_main_v6 (F := Ideal) x2 (ix1 p))
    (upd : FVec Ideal S1048576 .f32) (b : Fin 8192) (s : Fin 8) :
    Host.scatterAdd (F := Ideal) scatter_S65536_S1048576x1_S1048576_n_0_0_1 x idx upd
        (ix1 (⟨b.val * 8 + s.val, by omega⟩ : Fin 65536))
      = ∑ a : Fin 128, if x2 (ix2 b a) = BitVec.ofNat 32 s.val
          then upd (ix1 (⟨b.val * 128 + a.val, by omega⟩ : Fin 1048576)) else 0 := by
  have hb := b.isLt
  have hs := s.isLt
  refine (Cert.Lib.ScatterVec.scatterAdd_apply scatter_S65536_S1048576x1_S1048576_n_0_0_1 rfl rfl rfl x idx upd
    (⟨b.val * 8 + s.val, by omega⟩ : Fin 65536)).trans ?_
  rw [hx, zero_add]
  -- the word at position `128 b' + a'`, read signed, is `8 b' + s'`
  have hword : ∀ (b' : Fin 8192) (a' : Fin 128),
      (idx (ix2 (flatEquiv (b', a')) (0 : Fin 1))).toInt = ((b'.val * 8 + (x2 (ix2 b' a')).toNat : Nat) : Int) := by
    intro b' a'
    have hb' := b'.isLt
    have hs' := hseg b' a'
    rw [hidx]
    exact (congrArg BitVec.toInt (segflat_apply x2 hseg b' a')).trans
      (StableHlo.Predicate.toInt_ofNat_small _ (by omega))
  rw [← Equiv.sum_comp flatEquiv, Fintype.sum_prod_type, Finset.sum_eq_single b]
  · refine Finset.sum_congr rfl fun a _ => ?_
    have hs' := hseg b a
    refine if_congr ?_ rfl rfl
    rw [hword b a]
    constructor
    · intro h
      apply BitVec.eq_of_toNat_eq
      rw [BitVec.toNat_ofNat]
      show (x2 (ix2 b a)).toNat = s.val % 2 ^ 32
      have h' : (((b.val * 8 + (x2 (ix2 b a)).toNat : Nat) : Int)) = ((b.val * 8 + s.val : Nat) : Int) := h
      omega
    · intro h
      rw [h, BitVec.toNat_ofNat]
      show ((b.val * 8 + s.val % 2 ^ 32 : Nat) : Int) = ((b.val * 8 + s.val : Nat) : Int)
      congr 1
      omega
  · intro b' _ hne
    have hb' := b'.isLt
    refine Finset.sum_eq_zero fun a' _ => ?_
    have hs' := hseg b' a'
    rw [if_neg]
    rw [hword b' a']
    intro h
    have h' : (((b'.val * 8 + (x2 (ix2 b' a')).toNat : Nat) : Int)) = ((b.val * 8 + s.val : Nat) : Int) := h
    exact hne (Fin.ext (by omega))
  · intro h
    exact absurd (Finset.mem_univ b) h

/-- A flattened feature position `(128 b + a) 16 + f` splits back into `(b, a, f)`. -/
theorem feat_idx (b : Fin 8192) (a : Fin 128) (f : Fin 16) (j : S8192x128x16.Idx)
    (h0 : (j 0).val = ((b.val * 128 + a.val) * 16 + f.val) / 2048)
    (h1 : (j 1).val = ((b.val * 128 + a.val) * 16 + f.val) / 16 % 128)
    (h2 : (j 2).val = ((b.val * 128 + a.val) * 16 + f.val) % 16) : j = ix3 b a f := by
  have hb := b.isLt
  have ha := a.isLt
  have hf := f.isLt
  exact funext fun d => Fin.ext (by
    match d with
    | ⟨0, _⟩ => show (j 0).val = b.val; omega
    | ⟨1, _⟩ => show (j 1).val = a.val; omega
    | ⟨2, _⟩ => show (j 2).val = f.val; omega)

/-- The first scatter at global segment `8 b + s`: the sum of `⟨c, q⟩` over the atoms of row `b` with id `s`. -/
theorem v13_apply (x0 x1 : (⟨S8192x128x16, .f32⟩ : BufTy).Contents (Elt Ideal)) (x2 : (⟨S8192x128, .i32⟩ : BufTy).Contents (Elt Ideal))
    (hseg : ∀ (b : Fin 8192) (a : Fin 128), (x2 (ix2 b a)).toNat < 8) (b : Fin 8192) (s : Fin 8) :
    val_main_v13 (F := Ideal) x0 x1 x2 (ix1 (⟨b.val * 8 + s.val, by omega⟩ : Fin 65536))
      = Spec.segSum (fun a => x2 (ix2 b a)) (fun a => Spec.dotF (fun f => x0 (ix3 b a f)) (fun f => x1 (ix3 b a f)))
          (BitVec.ofNat 32 s.val) := by
  unfold val_main_v13
  refine (scatter_seg x2 hseg _ (fun k => ?_) _ (fun p => ?_) _ b s).trans ?_
  · rw [val_main_v11_apply, val_main_cst_0_apply]
    exact Ideal.ofBits_zero_f32
  · rw [val_main_v12_apply]
    exact congrArg _ (funext fun d => Fin.ext (by match d with | ⟨0, _⟩ => rfl))
  · unfold Spec.segSum
    refine Finset.sum_congr rfl fun a _ => if_congr Iff.rfl ?_ rfl
    rw [val_main_v10_apply, val_main_cst_apply]
    show Ideal.ofBits .f32 0x00000000#32 + _ = _
    rw [Ideal.ofBits_zero_f32, zero_add]
    unfold Spec.dotF
    refine Finset.sum_congr rfl fun f _ => ?_
    have h7 : idx_main_v7 (idx_main_v10 (ix1 (⟨b.val * 128 + a.val, by omega⟩ : Fin 1048576)) f) = ix3 b a f :=
      feat_idx b a f _ rfl rfl rfl
    have h8 : idx_main_v8 (idx_main_v10 (ix1 (⟨b.val * 128 + a.val, by omega⟩ : Fin 1048576)) f) = ix3 b a f :=
      feat_idx b a f _ rfl rfl rfl
    rw [val_main_v9_apply, val_main_v7_apply, val_main_v8_apply, h7, h8]
    rfl

/-- The second scatter at global segment `8 b + s`: the sum of `⟨q, q⟩` over the atoms of row `b` with id `s`. -/
theorem v18_apply (x1 : (⟨S8192x128x16, .f32⟩ : BufTy).Contents (Elt Ideal)) (x2 : (⟨S8192x128, .i32⟩ : BufTy).Contents (Elt Ideal))
    (hseg : ∀ (b : Fin 8192) (a : Fin 128), (x2 (ix2 b a)).toNat < 8) (b : Fin 8192) (s : Fin 8) :
    val_main_v18 (F := Ideal) x1 x2 (ix1 (⟨b.val * 8 + s.val, by omega⟩ : Fin 65536))
      = Spec.segSum (fun a => x2 (ix2 b a)) (fun a => Spec.dotF (fun f => x1 (ix3 b a f)) (fun f => x1 (ix3 b a f)))
          (BitVec.ofNat 32 s.val) := by
  unfold val_main_v18
  refine (scatter_seg x2 hseg _ (fun k => ?_) _ (fun p => ?_) _ b s).trans ?_
  · rw [val_main_v16_apply, val_main_cst_2_apply]
    exact Ideal.ofBits_zero_f32
  · rw [val_main_v17_apply]
    exact congrArg _ (funext fun d => Fin.ext (by match d with | ⟨0, _⟩ => rfl))
  · unfold Spec.segSum
    refine Finset.sum_congr rfl fun a _ => if_congr Iff.rfl ?_ rfl
    rw [val_main_v15_apply, val_main_cst_1_apply]
    show Ideal.ofBits .f32 0x00000000#32 + _ = _
    rw [Ideal.ofBits_zero_f32, zero_add]
    unfold Spec.dotF
    refine Finset.sum_congr rfl fun f _ => ?_
    have h8 : idx_main_v8 (idx_main_v15 (ix1 (⟨b.val * 128 + a.val, by omega⟩ : Fin 1048576)) f) = ix3 b a f :=
      feat_idx b a f _ rfl rfl rfl
    rw [val_main_v14_apply, val_main_v8_apply, h8]
    rfl

end Cert.RefScatter

end
-- ==== Proof.RefValue.lean ====
/-
  The reference computes the constrained projection `Spec.G` when every segment id is below 8.

  Read at batch row `b`, atom `a`, feature `f`, the result is `c - q * lam[p]` with `p = 128 b + a` the flattened atom.
  The multiplier `lam[p]` is a table look-up at the atom's global segment `8 b + s`, `s` the atom's segment id: that word
  is small and non-negative, so neither the wrap of negative positions nor the clamp into the table moves it. The table
  entry at `8 b + s` is `(cq - ch) / qq` with the two segment sums of row `b` at `s` and the charge `x3[b, s]`, which is
  the row's multiplier of segment `s`; and for `s < 8` the guarded sum `Spec.pick` selects exactly that multiplier.
-/
import proofs.«407845_j76063870812744_1_alg».proof.Proof.RefScatter
import Idealize.ShloMosaic.Lib.StableHlo.Predicate

noncomputable section

namespace Cert.RefValue

open Idealize.ShloMosaic Idealize.ShloMosaic.ValueIdx Cert.ReferenceIdeal Cert.ReferenceIdeal.Read

/-- A small non-negative word is not below zero in the signed order. -/
theorem slt_zero_ofNat (n : Nat) (hn : n < 2 ^ 31) : IntOp.cmpi .slt (BitVec.ofNat 32 n) 0#32 = 0#1 := by
  rcases BitVec.eq_zero_or_eq_one (IntOp.cmpi .slt (BitVec.ofNat 32 n) 0#32) with h | h
  · exact h
  · exact absurd ((StableHlo.Predicate.slt_ofNat_iff n 0 hn (by omega)).mp h) (Nat.not_lt_zero _)

/-- The look-up position of flattened atom `128 b + a` is its global segment `8 b + s`: the signed test against zero
    fails, so the position is the global segment id itself. -/
theorem pos_apply (x2 : (⟨S8192x128, .i32⟩ : BufTy).Contents (Elt Ideal))
    (hseg : ∀ (b : Fin 8192) (a : Fin 128), (x2 (ix2 b a)).toNat < 8) (b : Fin 8192) (a : Fin 128) :
    val_main_v27 (F := Ideal) x2 (StableHlo.Predicate.ixP (⟨b.val * 128 + a.val, by omega⟩ : Fin 1048576))
      = BitVec.ofNat 32 (b.val * 8 + (x2 (ix2 b a)).toNat) := by
  have hb := b.isLt
  have ha := a.isLt
  have hs := hseg b a
  have hi : idx_main_v27 (StableHlo.Predicate.ixP (⟨b.val * 128 + a.val, by omega⟩ : Fin 1048576))
      = ix1 (⟨b.val * 128 + a.val, by omega⟩ : Fin 1048576) :=
    funext fun d => Fin.ext (by match d with | ⟨0, _⟩ => rfl)
  rw [val_main_v27_apply, hi, val_main_v26_apply, val_main_v23_apply, RefScatter.segflat_apply x2 hseg b a,
    val_main_v22_apply, val_main_c_3_apply, slt_zero_ofNat _ (by omega), select_zero]

/-- The gathered multiplier of flattened atom `128 b + a` is the table's entry at the global segment `8 b + s`. -/
theorem v28_apply (x0 x1 : (⟨S8192x128x16, .f32⟩ : BufTy).Contents (Elt Ideal)) (x2 : (⟨S8192x128, .i32⟩ : BufTy).Contents (Elt Ideal))
    (x3 : (⟨S8192x8, .f32⟩ : BufTy).Contents (Elt Ideal))
    (hseg : ∀ (b : Fin 8192) (a : Fin 128), (x2 (ix2 b a)).toNat < 8) (b : Fin 8192) (a : Fin 128) :
    val_main_v28 (F := Ideal) x0 x1 x2 x3 (ix1 (⟨b.val * 128 + a.val, by omega⟩ : Fin 1048576))
      = val_main_v21 (F := Ideal) x0 x1 x2 x3
          (ix1 (⟨b.val * 8 + (x2 (ix2 b a)).toNat, by have := hseg b a; omega⟩ : Fin 65536)) := by
  have hb := b.isLt
  have ha := a.isLt
  have hs := hseg b a
  have hp : ix1 (⟨b.val * 128 + a.val, by omega⟩ : Fin 1048576)
      = Shape.Idx.ofFin (⟨b.val * 128 + a.val, by omega⟩ : Fin 1048576) :=
    funext fun d => Fin.ext (by match d with | ⟨0, _⟩ => rfl)
  unfold val_main_v28
  generalize val_main_v21 (F := Ideal) x0 x1 x2 x3 = T
  rw [hp]
  refine (StableHlo.Predicate.gather_take gather_S65536_S1048576x1_S1048576_n_0_n_n_0_1_1 rfl rfl rfl rfl T
    (val_main_v27 (F := Ideal) x2) (⟨b.val * 128 + a.val, by omega⟩ : Fin 1048576) (by decide)).trans ?_
  refine congrArg T (funext fun d => Fin.ext ?_)
  match d with
  | ⟨0, _⟩ =>
    show min (val_main_v27 (F := Ideal) x2 (StableHlo.Predicate.ixP (⟨b.val * 128 + a.val, by omega⟩ : Fin 1048576))).toInt.toNat
      (65536 - 1) = b.val * 8 + (x2 (ix2 b a)).toNat
    rw [pos_apply x2 hseg b a, StableHlo.Predicate.toInt_ofNat_small _ (by omega), Int.toNat_natCast]
    omega

/-- The table's entry at global segment `8 b + s` is row `b`'s multiplier of segment `s`. -/
theorem v21_apply (x0 x1 : (⟨S8192x128x16, .f32⟩ : BufTy).Contents (Elt Ideal)) (x2 : (⟨S8192x128, .i32⟩ : BufTy).Contents (Elt Ideal))
    (x3 : (⟨S8192x8, .f32⟩ : BufTy).Contents (Elt Ideal))
    (hseg : ∀ (b : Fin 8192) (a : Fin 128), (x2 (ix2 b a)).toNat < 8) (b : Fin 8192) (s : Fin 8) :
    val_main_v21 (F := Ideal) x0 x1 x2 x3 (ix1 (⟨b.val * 8 + s.val, by omega⟩ : Fin 65536))
      = Spec.lamOf (fun a f => x0 (ix3 b a f)) (fun a f => x1 (ix3 b a f)) (fun a => x2 (ix2 b a))
          (fun s => x3 (ix2 b s)) s := by
  have hb := b.isLt
  have hs := s.isLt
  have hi : idx_main_v19 (ix1 (⟨b.val * 8 + s.val, by omega⟩ : Fin 65536)) = ix2 b s :=
    funext fun d => Fin.ext (by
      match d with
      | ⟨0, _⟩ => show (b.val * 8 + s.val) / 8 = b.val; omega
      | ⟨1, _⟩ => show (b.val * 8 + s.val) % 8 = s.val; omega)
  rw [val_main_v21_apply, val_main_v20_apply, RefScatter.v13_apply x0 x1 x2 hseg b s, RefScatter.v18_apply x1 x2 hseg b s,
    val_main_v19_apply, hi]
  rfl

/-- With every segment id in `[0, 8)`, the reference's result array is `Spec.G` of the argument arrays. -/
theorem ref_eq (x0 x1 : (⟨S8192x128x16, .f32⟩ : BufTy).Contents (Elt Ideal)) (x2 : (⟨S8192x128, .i32⟩ : BufTy).Contents (Elt Ideal))
    (x3 : (⟨S8192x8, .f32⟩ : BufTy).Contents (Elt Ideal))
    (hseg : ∀ (b : Fin 8192) (a : Fin 128), (x2 (ix2 b a)).toNat < 8) :
    val_main_v33 (F := Ideal) x0 x1 x2 x3 = Spec.G x0 x1 x2 x3 := by
  funext i
  obtain ⟨b, a, f, rfl⟩ : ∃ (b : Fin 8192) (a : Fin 128) (f : Fin 16), i = ix3 b a f := ⟨i 0, i 1, i 2, eq_ix3 i⟩
  have hb := b.isLt
  have ha := a.isLt
  have hf := f.isLt
  have h33 : idx_main_v33 (ix3 b a f) = ix2 (⟨b.val * 128 + a.val, by omega⟩ : Fin 1048576) f :=
    funext fun d => Fin.ext (by
      match d with
      | ⟨0, _⟩ => show ((b.val * 128 + a.val) * 16 + f.val) / 16 = b.val * 128 + a.val; omega
      | ⟨1, _⟩ => show ((b.val * 128 + a.val) * 16 + f.val) % 16 = f.val; omega)
  have h7 : idx_main_v7 (ix2 (⟨b.val * 128 + a.val, by omega⟩ : Fin 1048576) f) = ix3 b a f :=
    funext fun d => Fin.ext (by
      match d with
      | ⟨0, _⟩ => show ((b.val * 128 + a.val) * 16 + f.val) / 2048 = b.val; omega
      | ⟨1, _⟩ => show ((b.val * 128 + a.val) * 16 + f.val) / 16 % 128 = a.val; omega
      | ⟨2, _⟩ => show ((b.val * 128 + a.val) * 16 + f.val) % 16 = f.val; omega)
  have h8 : idx_main_v8 (ix2 (⟨b.val * 128 + a.val, by omega⟩ : Fin 1048576) f) = ix3 b a f :=
    funext fun d => Fin.ext (by
      match d with
      | ⟨0, _⟩ => show ((b.val * 128 + a.val) * 16 + f.val) / 2048 = b.val; omega
      | ⟨1, _⟩ => show ((b.val * 128 + a.val) * 16 + f.val) / 16 % 128 = a.val; omega
      | ⟨2, _⟩ => show ((b.val * 128 + a.val) * 16 + f.val) % 16 = f.val; omega)
  have h29 : idx_main_v29 (idx_main_v30 (ix2 (⟨b.val * 128 + a.val, by omega⟩ : Fin 1048576) f))
      = ix1 (⟨b.val * 128 + a.val, by omega⟩ : Fin 1048576) :=
    funext fun d => Fin.ext (by match d with | ⟨0, _⟩ => rfl)
  rw [Spec.G_ix3, val_main_v33_apply, h33, val_main_v32_apply, val_main_v31_apply, val_main_v30_apply, val_main_v29_apply,
    h29, val_main_v7_apply, h7, val_main_v8_apply, h8, v28_apply x0 x1 x2 x3 hseg b a,
    v21_apply x0 x1 x2 x3 hseg b ⟨(x2 (ix2 b a)).toNat, hseg b a⟩]
  unfold Spec.Gat Spec.rowOut
  rw [Spec.pick_of_lt _ _ (hseg b a)]
  rfl

end Cert.RefValue

end
-- ==== Proof.PreDecode.lean ====
/-
  The precondition's last two conjuncts say that every segment id lies in `[0, 8)`.
-/
import proofs.«407845_j76063870812744_1_alg».proof.Pre_finite_inputs
import proofs.«407845_j76063870812744_1_alg».proof.Proof.Gen.Pre_finite_inputs
import Idealize.ShloMosaic.Lib.ValueIdx
import Idealize.ShloMosaic.Lib.ReduceAll
import Idealize.ShloMosaic.Lib.StableHlo.Predicate
import Idealize.ShloMosaic.PureOps.Ideal

noncomputable section

namespace Cert.PreDecode

open Idealize.ShloMosaic Idealize.ShloMosaic.ValueIdx Cert.Pre_finite_inputs

/-- The scalar shape has one index. -/
instance : Subsingleton S_.Idx := ⟨fun a b => funext fun d => d.elim0⟩

/-- A pointwise `and` of two bit arrays is 1 at an index exactly when both arrays are 1 there. -/
theorem andi_apply_eq_one {s : Shape} (x y : IVec s 1) (i : s.Idx) (h : andi x y i = 1#1) :
    x i = 1#1 ∧ y i = 1#1 :=
  IntOp.andi_eq_one.1 h

/-- A 32-bit word that reads signed in `[0, 8)` reads unsigned below 8. -/
theorem toNat_lt_of_toInt {w : BitVec 32} (h0 : (0#32 : BitVec 32).toInt ≤ w.toInt)
    (h8 : w.toInt < (8#32 : BitVec 32).toInt) : w.toNat < 8 := by
  have e0 : (0#32 : BitVec 32).toInt = 0 := by decide
  have e8 : (8#32 : BitVec 32).toInt = 8 := by decide
  rw [e0] at h0
  rw [e8] at h8
  have hw := w.isLt
  rw [BitVec.toInt_eq_toNat_cond] at h0 h8
  split at h0 <;> omega

/-- Where the precondition holds, every segment id, read as a number, is below 8 (and, read signed, not negative). -/
theorem seg_lt (x0 x1 : FVec Ideal S8192x128x16 .f32) (x2 : IVec S8192x128 32) (x3 : FVec Ideal S8192x8 .f32)
    (h : fn (F := Ideal) x0 x1 x2 x3 = fun _ => 1#1) (b : Fin 8192) (a : Fin 128) : (x2 (ix2 b a)).toNat < 8 := by
  -- the precondition's one bit
  have h0 := congrFun h ValueIdx.ix0
  dsimp only [fn, fn_part1] at h0
  -- the outermost `and`: (… ∧ all (segment ≥ 0)) ∧ all (segment < 8)
  obtain ⟨h1, hlt⟩ := andi_apply_eq_one _ _ _ h0
  obtain ⟨-, hge⟩ := andi_apply_eq_one _ _ _ h1
  -- each `all` gives its fact at the index (b, a)
  have hge' := Host.reduce_andi_all _ _ _ _ _ hge (ix2 b a)
  have hlt' := Host.reduce_andi_all _ _ _ _ _ hlt (ix2 b a)
  -- a broadcast scalar constant reads the constant; the compares are signed
  exact toNat_lt_of_toInt (IntOp.cmpi_sge.1 hge') (IntOp.cmpi_slt.1 hlt')

end Cert.PreDecode

end
-- ==== Proof.lean ====
/-
  The kernel and its reference compute, for every batch row, the projection `c - q * lam(seg)` with one multiplier
  `lam s = (Σ_{a ∈ s} ⟨c a, q a⟩ - charge s) / Σ_{a ∈ s} ⟨q a, q a⟩` per segment `s` of the row's atoms (`Spec.G`).

  The kernel works batch row by batch row: for each of the eight segment ids it masks the atoms of that id, sums the two
  inner products over them, forms the multiplier and adds it, masked again, into a per-atom multiplier
  (`KernelBlock`); its grid of 128 points covers the 8192 batch rows 64 at a time (`KernelArray`). The reference numbers the
  segments of all rows together, `8 b + s`, accumulates the inner products by a scatter-add over the flattened atoms and
  reads each atom's multiplier back by a gather (`RefScatter`, `RefValue`). The two agree where every segment id lies in
  `[0, 8)`, which the precondition states (`PreDecode`): then global segment `8 b + s` holds exactly the atoms of row `b` with
  id `s`, and the kernel's sum of eight masked multipliers is the multiplier of the atom's own segment. No finiteness is
  used: sums on the extended reals may be regrouped freely, zero is neutral, and both sides divide by the same quotient.
-/
import proofs.«407845_j76063870812744_1_alg».proof.Defs
import proofs.«407845_j76063870812744_1_alg».proof.Proof.Gen.Kernel
import proofs.«407845_j76063870812744_1_alg».proof.Proof.Gen.Kernel.Skeleton
import proofs.«407845_j76063870812744_1_alg».proof.Proof.Gen.Kernel.Launch
import proofs.«407845_j76063870812744_1_alg».proof.Proof.Gen.Kernel.Points
import proofs.«407845_j76063870812744_1_alg».proof.Proof.Gen.Kernel.Frame
import proofs.«407845_j76063870812744_1_alg».proof.Proof.Gen.KernelIdeal
import proofs.«407845_j76063870812744_1_alg».proof.Proof.Gen.KernelIdeal.Skeleton
import proofs.«407845_j76063870812744_1_alg».proof.Proof.Gen.KernelIdeal.Launch
import proofs.«407845_j76063870812744_1_alg».proof.Proof.Gen.KernelIdeal.Points
import proofs.«407845_j76063870812744_1_alg».proof.Proof.Gen.KernelIdeal.Frame
import proofs.«407845_j76063870812744_1_alg».proof.Proof.Gen.ReferenceIdeal
import proofs.«407845_j76063870812744_1_alg».proof.Proof.Gen.Pre_finite_inputs
import proofs.«407845_j76063870812744_1_alg».proof.Proof.Gen.KernelIdeal.Value
import proofs.«407845_j76063870812744_1_alg».proof.Proof.Gen.ReferenceIdeal.Run
import proofs.«407845_j76063870812744_1_alg».proof.Proof.Gen.ReferenceIdeal.Read
import proofs.«407845_j76063870812744_1_alg».proof.Proof.KernelArray
import proofs.«407845_j76063870812744_1_alg».proof.Proof.RefValue
import proofs.«407845_j76063870812744_1_alg».proof.Proof.PreDecode
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with `Spec.G` of the (agreeing) argument arrays in their result arrays. -/
theorem algebraic : Cert.algebraic_KernelIdeal_ReferenceIdeal := by
  intro m ρ m' ρ' hpre hagree
  refine ⟨_, Cert.KernelArray.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v33_eq _ _ _ _).trans ?_
  rw [(hagree c).1, (hagree c).2.1, (hagree c).2.2.1, (hagree c).2.2.2]
  exact Cert.RefValue.ref_eq _ _ _ _ (Cert.PreDecode.seg_lt _ _ _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
